-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x8192 : S_.BroadcastsInDim S512x8192 (![] : Fin 0 → Fin S512x8192.rank)
  reducesTo_S512x8192_S_d0_1 : S512x8192.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S128x8192 .f32) (main_arg1 : FVec F S8192x8192 .f32) (main_arg2 : FVec F S512x8192 .f32) (main_arg3 : FVec F S16x1 .f32) (main_arg4 : FVec F S1 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x8192 .f32 := Host.absf main_arg2
  let main_cst_2 : FVec F S_ .f32 := constant S_ .f32 0x7F800000#32
  let main_v10 : FVec F S512x8192 .f32 := broadcastInDim S512x8192 ![] bcast_S_S512x8192 main_cst_2
  let main_v11 : IVec S512x8192 1 := cmpf .olt main_v9 main_v10
  let main_c_3 : IVec S_ 1 := constantI S_ 1 1#1
  let main_v12 : IVec S_ 1 := (fun x v => Host.reduce IntOp.andi x v reducesTo_S512x8192_S_d0_1 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S128x2048 : Shape := ⟨2, ![128, 2048]⟩
abbrev S1024x2048 : Shape := ⟨2, ![1024, 2048]⟩
abbrev S128x1024 : Shape := ⟨2, ![128, 1024]⟩
abbrev S2048x1024 : Shape := ⟨2, ![2048, 1024]⟩
abbrev S16 : Shape := ⟨1, ![16]⟩
abbrev S8192x512 : Shape := ⟨2, ![8192, 512]⟩
abbrev S128x512 : Shape := ⟨2, ![128, 512]⟩
abbrev S1x16 : Shape := ⟨2, ![1, 16]⟩
abbrev S512x16 : Shape := ⟨2, ![512, 16]⟩
abbrev S8192 : Shape := ⟨1, ![8192]⟩
abbrev S128x512x16 : Shape := ⟨3, ![128, 512, 16]⟩
abbrev S_ : Shape := ⟨0, ![]⟩
abbrev S1x8192 : Shape := ⟨2, ![1, 8192]⟩

abbrev nBuf : Space → Nat
  | .hbm => 23
  | .vmem => 7
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S512x8192, .f32⟩
  | .hbm, ⟨3, _⟩ => ⟨S16x1, .f32⟩
  | .hbm, ⟨4, _⟩ => ⟨S1, .f32⟩
  | .hbm, ⟨5, _⟩ => ⟨S128x8192, .f32⟩
  | .hbm, ⟨6, _⟩ => ⟨S16, .f32⟩
  | .hbm, ⟨7, _⟩ => ⟨S8192x512, .f32⟩
  | .hbm, ⟨8, _⟩ => ⟨S128x512, .f32⟩
  | .hbm, ⟨9, _⟩ => ⟨S1x16, .f32⟩
  | .hbm, ⟨10, _⟩ => ⟨S512x16, .f32⟩
  | .hbm, ⟨11, _⟩ => ⟨S8192, .f32⟩
  | .hbm, ⟨12, _⟩ => ⟨S128x512x16, .f32⟩
  | .hbm, ⟨13, _⟩ => ⟨S128x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x8192, .f32⟩
  | .hbm, ⟨18, _⟩ => ⟨S128x8192, .f32⟩
  | .hbm, ⟨19, _⟩ => ⟨S128x8192, .f32⟩
  | .hbm, ⟨20, _⟩ => ⟨S128x8192, .f32⟩
  | .hbm, ⟨21, _⟩ => ⟨S128x8192, .f32⟩
  | .hbm, ⟨22, _⟩ => ⟨S128x8192, .f32⟩
  | .local _ .vmem, ⟨0, _⟩ => ⟨S128x2048, .f32⟩
  | .local _ .vmem, ⟨1, _⟩ => ⟨S128x2048, .f32⟩
  | .local _ .vmem, ⟨2, _⟩ => ⟨S1024x2048, .f32⟩
  | .local _ .vmem, ⟨3, _⟩ => ⟨S1024x2048, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  shapeCasts_S16x1_S16 : S16x1.ShapeCasts S16
  transposes_S512x8192_S8192x512_1_0 : S512x8192.Transposes [1, 0] S8192x512
  shapeCasts_S16_S1x16 : S16.ShapeCasts S1x16
  bcast_S1x16_S512x16_0_1 : S1x16.BroadcastsInDim S512x16 (![0, 1] : Fin 2 → Fin S512x16.rank)
  shapeCasts_S512x16_S8192 : S512x16.ShapeCasts S8192
  bcast_S128x512_S128x512x16_0_1 : S128x512.BroadcastsInDim S128x512x16 (![0, 1] : Fin 2 → Fin S128x512x16.rank)
  shapeCasts_S128x512x16_S128x8192 : S128x512x16.ShapeCasts S128x8192
  shapeCasts_S1_S_ : S1.ShapeCasts S_
  bcast_S8192_S1x8192_1 : S8192.BroadcastsInDim S1x8192 (![1] : Fin 1 → Fin S1x8192.rank)
  bcast_S1x8192_S128x8192_0_1 : S1x8192.BroadcastsInDim S128x8192 (![0, 1] : Fin 2 → Fin S128x8192.rank)
  bcast_S_S128x8192 : S_.BroadcastsInDim S128x8192 (![] : Fin 0 → Fin S128x8192.rank)
  dot_S128x2048_S2048x1024_S128x1024_1_0_0_1_n_n_wf : DotDims.WF S128x2048 S2048x1024 S128x1024 [1] [0] [0] [1] [] []
  dot_S128x8192_S8192x512_S128x512_1_0_0_1_n_n_wf : DotDims.WF S128x8192 S8192x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x8192.size a
  hwx0_0 : ∀ i : grid0.Coords, EltTy.bits .f32 = 32 ∨ (Rect.block (s := S128x8192) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x8192.size a
  hwx0_2 : ∀ i : grid0.Coords, EltTy.bits .f32 = 32 ∨ (Rect.block (s := S128x8192) S128x1024.size (cc0_transform_2 i) (hinb0_2 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S512x1x8192x1 : Shape := ⟨4, ![512, 1, 8192, 1]⟩
abbrev S1x16x1x1 : Shape := ⟨4, ![1, 16, 1, 1]⟩
abbrev S512x16x8192x1 : Shape := ⟨4, ![512, 16, 8192, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S512x8192, .f32⟩
  | .hbm, ⟨3, _⟩ => ⟨S16x1, .f32⟩
  | .hbm, ⟨4, _⟩ => ⟨S1, .f32⟩
  | .hbm, ⟨5, _⟩ => ⟨S512x1x8192x1, .f32⟩
  | .hbm, ⟨6, _⟩ => ⟨S1x16x1x1, .f32⟩
  | .hbm, ⟨7, _⟩ => ⟨S512x16x8192x1, .f32⟩
  | .hbm, ⟨8, _⟩ => ⟨S512x16x8192x1, .f32⟩
  | .hbm, ⟨9, _⟩ => ⟨S512x16x8192x1, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S512x8192_S512x1x8192x1_0_2 : S512x8192.BroadcastsInDim S512x1x8192x1 (![0, 2] : Fin 2 → Fin S512x1x8192x1.rank)
  bcast_S16x1_S1x16x1x1_1_3 : S16x1.BroadcastsInDim S1x16x1x1 (![1, 3] : Fin 2 → Fin S1x16x1x1.rank)
  bcast_S512x1x8192x1_S512x16x8192x1_0_1_2_3 : S512x1x8192x1.BroadcastsInDim S512x16x8192x1 (![0, 1, 2, 3] : Fin 4 → Fin S512x16x8192x1.rank)
  bcast_S1x16x1x1_S512x16x8192x1_0_1_2_3 : S1x16x1x1.BroadcastsInDim S512x16x8192x1 (![0, 1, 2, 3] : Fin 4 → Fin S512x16x8192x1.rank)
  shapeCasts_S512x16x8192x1_S8192x8192 : S512x16x8192x1.ShapeCasts S8192x8192
  bcast_S_S8192x8192 : S_.BroadcastsInDim S8192x8192 (![] : Fin 0 → Fin S8192x8192.rank)
  shapeCasts_S1_S_ : S1.ShapeCasts S_
  transposes_S8192x8192_S8192x8192_1_0 : S8192x8192.Transposes [1, 0] S8192x8192
  dot_S128x8192_S8192x8192_S128x8192_1_0_0_1_n_n_wf : DotDims.WF S128x8192 S8192x8192 S128x8192 [1] [0] [0] [1] [] []

variable [Facts₀]

def dot_S128x8192_S8192x8192_S128x8192_1_0_0_1_n_n : DotDims S128x8192 S8192x8192 S128x8192 where
  lhsContracting := [1]
  rhsContracting := [0]
  lhsNonContracting := [0]
  rhsNonContracting := [1]
  lhsBatch := []
  rhsBatch := []
  wf := dot_S128x8192_S8192x8192_S128x8192_1_0_0_1_n_n_wf

class Facts : Prop extends Facts₀ where

variable [Facts]
-- ==== Proof.Spec.lean ====
/-
  The two arrangements of one linear map, as functions of the five argument arrays, over the extended reals.

  With `n = 16·i + j` (`i = n / 16 < 512`, `j = n % 16 < 16`), row `n` of the Kronecker product `A ⊗ B` of a
  512×8192 matrix `A` with a 16×1 column `B` is `B j · A i`.  The MERGED form multiplies `X` by the one matrix
  `W + s·((A ⊗ B)·2)`; the SPLIT form multiplies `X` by `W`, multiplies `X` by `A` (512 columns only), and adds
  the second product, spread over the 16 columns of each group and scaled by `(s·2)·B j`, to the first.
-/
import Idealize.ShloMosaic.PureOps.Ideal
import Idealize.ShloMosaic.Lib.ValueIdx

noncomputable section

namespace Cert.Lokr

open Idealize.ShloMosaic Idealize.ShloMosaic.ValueIdx

/-- The group of sixteen that output column `n` lies in: its row of `A`. -/
abbrev hi (n : Fin 8192) : Fin 512 := ⟨n.val / 16, by have := n.isLt; omega⟩
/-- Its place inside the group: its row of `B`. -/
abbrev lo (n : Fin 8192) : Fin 16 := ⟨n.val % 16, Nat.mod_lt _ (by decide)⟩

/-- The scaling `2.0`, as the word both programs spell. -/
abbrev two : EReal := Ideal.ofBits .f32 0x40000000#32

variable (X : (⟨2, ![128, 8192]⟩ : Shape).Idx → EReal) (W : (⟨2, ![8192, 8192]⟩ : Shape).Idx → EReal)
  (A : (⟨2, ![512, 8192]⟩ : Shape).Idx → EReal) (B : (⟨2, ![16, 1]⟩ : Shape).Idx → EReal)
  (s : (⟨1, ![1]⟩ : Shape).Idx → EReal)

/-- Entry `(p, n)` of `X · (W + s·((A ⊗ B)·2))ᵀ`: one sum over the 8192 columns. -/
def mergedAt (p : Fin 128) (n : Fin 8192) : EReal :=
  ∑ k : Fin 8192, X (ix2 p k) * (W (ix2 n k) + s (ix1 0) * ((A (ix2 (hi n) k) * B (ix2 (lo n) 0)) * two))

/-- Entry `(p, n)` of `X · Wᵀ`. -/
def mainAt (p : Fin 128) (n : Fin 8192) : EReal := ∑ k : Fin 8192, X (ix2 p k) * W (ix2 n k)

/-- The low-rank correction at `(p, n)`: `(s·2) · ((X · Aᵀ)[p, n / 16] · B[n % 16])`. -/
def corrAt (p : Fin 128) (n : Fin 8192) : EReal :=
  (s (ix1 0) * two) * ((∑ k : Fin 8192, X (ix2 p k) * A (ix2 (hi n) k)) * B (ix2 (lo n) 0))

/-- The merged form as an array. -/
def merged : (⟨2, ![128, 8192]⟩ : Shape).Idx → EReal := fun i => mergedAt X W A B s (i 0) (i 1)

/-- The split form as an array: the main product plus the correction. -/
def split : (⟨2, ![128, 8192]⟩ : Shape).Idx → EReal := fun i => mainAt X W (i 0) (i 1) + corrAt X A B s (i 0) (i 1)

end Cert.Lokr

end
-- ==== Proof.Law.lean ====
/-
  The distributive law that joins the two arrangements, and the finiteness of the entries it rests on.

  Over the reals,  Σ_k x_k · (w_k + s·((a_k·b)·t)) = Σ_k x_k·w_k + (s·t)·((Σ_k x_k·a_k)·b):  multiplication distributes
  over addition and a constant factor leaves a finite sum.  Over the extended reals neither holds in general
  (`⊤ + ⊥ = ⊥`, and `x·(y + z)` need not be `x·y + x·z` at an infinity), so the law is stated for entries that are
  real numbers.  That they are is what the precondition says: every entry `x` of every argument has `|x| < +∞`,
  and an extended real whose absolute value is below `⊤` is neither `⊤` nor `⊥`.
-/
import proofs.«131442_j70806830841898_1_alg».proof.Proof.Spec
import proofs.«131442_j70806830841898_1_alg».proof.Pre_finite_inputs
import proofs.«131442_j70806830841898_1_alg».proof.Proof.Gen.Pre_finite_inputs
import Idealize.ShloMosaic.Lib.ReduceAll
import Idealize.ShloMosaic.Lib.ValueIdx
import Mathlib.Data.EReal.Basic
import Mathlib.Data.EReal.Operations
import Mathlib.Algebra.BigOperators.Group.Finset.Basic
import Mathlib.Algebra.BigOperators.Ring.Finset
import Mathlib.Tactic.Ring
import Mathlib.Tactic.NormNum

noncomputable section

namespace Cert.Lokr

open Idealize.ShloMosaic Idealize.ShloMosaic.ValueIdx

/-! ## The law -/

/-- The coercion of the reals into the extended reals carries a finite sum to the sum of the coercions. -/
theorem coe_finsum {ι : Type} (t : Finset ι) (f : ι → ℝ) :
    ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The law over any finite index type, every quantity the coercion of a real:
    the sum of `x·w` plus `s·t` times (the sum of `x·a`, times `b`) is the one sum of `x·(w + s·((a·b)·t))`. -/
theorem sum_split_eq_sum_merged {ι : Type} [Fintype ι] (x w a : ι → EReal) (b s t : EReal)
    (hx : ∀ k, ∃ r : ℝ, x k = r) (hw : ∀ k, ∃ r : ℝ, w k = r) (ha : ∀ k, ∃ r : ℝ, a k = r)
    (hb : ∃ r : ℝ, b = r) (hs : ∃ r : ℝ, s = r) (ht : ∃ r : ℝ, t = r) :
    (∑ k, x k * w k) + (s * t) * ((∑ k, x k * a k) * b) = ∑ k, x k * (w k + s * ((a k * b) * t)) := by
  choose x' hx using hx
  choose w' hw using hw
  choose a' ha using ha
  obtain ⟨b', rfl⟩ := hb
  obtain ⟨s', rfl⟩ := hs
  obtain ⟨t', rfl⟩ := ht
  obtain rfl : x = fun k => ((x' k : ℝ) : EReal) := funext hx
  obtain rfl : w = fun k => ((w' k : ℝ) : EReal) := funext hw
  obtain rfl : a = fun k => ((a' k : ℝ) : EReal) := funext ha
  -- every product, sum and finite sum of coercions is the coercion of the real one
  simp only [← EReal.coe_mul, ← EReal.coe_add, ← coe_finsum]
  refine congrArg (fun r : ℝ => (r : EReal)) ?_
  -- in the reals: distribute, split the sum, and move the constant factors through it
  simp only [mul_add, Finset.sum_add_distrib]
  congr 1
  rw [Finset.sum_mul, Finset.mul_sum]
  refine Finset.sum_congr rfl fun k _ => ?_
  ring

/-- The scaling constant is the real number two. -/
theorem two_eq : two = ((2 : ℝ) : EReal) := by
  unfold two
  simp [Ideal.ofBits, Ideal.ieee, -EReal.coe_mul]; norm_num

/-- **The law.** With every entry of every argument a real number, the split form is the merged form. -/
theorem split_eq_merged (X : (⟨2, ![128, 8192]⟩ : Shape).Idx → EReal) (W : (⟨2, ![8192, 8192]⟩ : Shape).Idx → EReal)
    (A : (⟨2, ![512, 8192]⟩ : Shape).Idx → EReal) (B : (⟨2, ![16, 1]⟩ : Shape).Idx → EReal)
    (s : (⟨1, ![1]⟩ : Shape).Idx → EReal)
    (hX : ∀ i, ∃ r : ℝ, X i = r) (hW : ∀ i, ∃ r : ℝ, W i = r) (hA : ∀ i, ∃ r : ℝ, A i = r)
    (hB : ∀ i, ∃ r : ℝ, B i = r) (hs : ∀ i, ∃ r : ℝ, s i = r) :
    split X W A B s = merged X W A B s := by
  funext i
  unfold split merged mainAt corrAt mergedAt
  exact sum_split_eq_sum_merged (fun k : Fin 8192 => X (ix2 (i 0) k)) (fun k : Fin 8192 => W (ix2 (i 1) k))
    (fun k : Fin 8192 => A (ix2 (hi (i 1)) k)) (B (ix2 (lo (i 1)) 0)) (s (ix1 0)) two
    (fun k => hX _) (fun k => hW _) (fun k => hA _) (hB _) (hs _) ⟨2, two_eq⟩

/-! ## Finiteness from the precondition -/

/-- An extended real whose absolute value `max x (-x)` lies strictly below `+∞` is a real number:
    at `⊥` and at `⊤` the absolute value is `⊤` itself. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  induction x using EReal.rec with
  | bot => simp at h
  | top => simp at h
  | coe r => exact ⟨r, rfl⟩

/-- The rank-zero shape has one index. -/
instance subsingleton_idx_rank0 : Subsingleton Cert.Pre_finite_inputs.S_.Idx := ⟨fun a b => funext fun d => d.elim0⟩

/-- **Finiteness.** The precondition is the conjunction, over the five arguments, of "every entry has absolute value
    below `+∞`"; so under it every entry of every argument is a real number. -/
theorem real_of_pre (X : FVec Ideal Cert.Pre_finite_inputs.S128x8192 .f32) (W : FVec Ideal Cert.Pre_finite_inputs.S8192x8192 .f32)
    (A : FVec Ideal Cert.Pre_finite_inputs.S512x8192 .f32) (B : FVec Ideal Cert.Pre_finite_inputs.S16x1 .f32)
    (s : FVec Ideal Cert.Pre_finite_inputs.S1 .f32)
    (h : Cert.Pre_finite_inputs.fn (F := Ideal) X W A B s = fun _ => 1#1) :
    (∀ i, ∃ r : ℝ, X i = r) ∧ (∀ i, ∃ r : ℝ, W i = r) ∧ (∀ i, ∃ r : ℝ, A i = r) ∧ (∀ i, ∃ r : ℝ, B i = r)
      ∧ (∀ i, ∃ r : ℝ, s i = r) := by
  have h0 := congrFun h ValueIdx.ix0
  dsimp only [Cert.Pre_finite_inputs.fn, Cert.Pre_finite_inputs.fn_part1] at h0
  -- the conjunction of words is a conjunction of facts, one per argument
  obtain ⟨h0123, h4⟩ := IntOp.andi_eq_one.1 h0
  obtain ⟨h012, h3⟩ := IntOp.andi_eq_one.1 h0123
  obtain ⟨h01, h2⟩ := IntOp.andi_eq_one.1 h012
  obtain ⟨hX, hW⟩ := IntOp.andi_eq_one.1 h01
  -- each fact is a conjunction over all entries, and each entry's fact is the comparison of its absolute value with `+∞`
  exact ⟨fun i => real_of_abs_lt (X i) (Host.reduce_andi_all _ _ _ _ _ hX i),
    fun i => real_of_abs_lt (W i) (Host.reduce_andi_all _ _ _ _ _ hW i),
    fun i => real_of_abs_lt (A i) (Host.reduce_andi_all _ _ _ _ _ h2 i),
    fun i => real_of_abs_lt (B i) (Host.reduce_andi_all _ _ _ _ _ h3 i),
    fun i => real_of_abs_lt (s i) (Host.reduce_andi_all _ _ _ _ _ h4 i)⟩

end Cert.Lokr

end
-- ==== Proof.RefValue.lean ====
import proofs.«131442_j70806830841898_1_alg».proof.Proof.Gen.ReferenceIdeal.Run
import proofs.«131442_j70806830841898_1_alg».proof.Proof.Gen.ReferenceIdeal.Read
import proofs.«131442_j70806830841898_1_alg».proof.Proof.Spec
import Idealize.ShloMosaic.Lib.Pipeline.Value
import Idealize.ShloMosaic.Lib.ValueIdx
import Idealize.ShloMosaic.PureOps.Ideal

/-
  The reference program, read at the ideal instance, computes the merged form: entry (p, n) of its result is the
  sum over the 8192 columns k of X[p,k] · (W[n,k] + s · ((A[n / 16, k] · B[n % 16, 0]) · 2)).

  The program builds the 512×16×8192×1 array of products A[i,k] · B[j,0], reshapes it to 8192×8192 (row-major, so
  row n = 16·i + j holds the products of group i = n / 16 and place j = n % 16), scales it by the constant 2 and by
  the scalar s, adds W, transposes, and contracts with X. Reading each operation at one index turns the result's
  entry into the sum above, once the composed index functions are identified with the coordinates they compute.
-/

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The reshape of the one-element array to a scalar reads that one element: both index sets have one point, so the
    two row-major positions are both 0. -/
theorem val_main_v8_apply (x4 : (⟨S1, .f32⟩ : BufTy).Contents (Elt Ideal)) (i : S_.Idx) :
    val_main_v8 (F := Ideal) x4 i = x4 (ix1 0) := by
  unfold val_main_v8
  exact shapeCast_apply x4 shapeCasts_S1_S_ i (ix1 0) (by
    show (S1.rowMajor (ix1 0)).val = (S_.rowMajor i).val
    have h1 : (S1.rowMajor (ix1 0)).val < 1 := (S1.rowMajor (ix1 0)).isLt
    have h2 : (S_.rowMajor i).val < 1 := (S_.rowMajor i).isLt
    omega)

/-- The left operand of the contraction is read at row p, column k. -/
theorem lidx_eq (p : Fin 128) (n k : Fin 8192) : lidx_main_v13 (ix2 p n) k = ix2 p k :=
  funext fun a => Fin.ext (by
    match a with
    | ⟨0, _⟩ => rfl
    | ⟨1, _⟩ => rfl)

/-- The transposed right operand at (k, n) is the untransposed one at (n, k). -/
theorem ridx_eq (p : Fin 128) (n k : Fin 8192) : idx_main_v12 (ridx_main_v13 (ix2 p n) k) = ix2 n k :=
  funext fun a => Fin.ext (by
    match a with
    | ⟨0, _⟩ => rfl
    | ⟨1, _⟩ => rfl)

/-- Row n, column k of the reshaped product array comes from row n / 16 of A at column k: the row-major position
    n·8192 + k splits as ((n / 16)·16 + n % 16)·8192 + k. -/
theorem aidx_eq (n k : Fin 8192) : idx_main_v0 (idx_main_v2 (idx_main_v5 (ix2 n k))) = ix2 (Cert.Lokr.hi n) k :=
  funext fun a => Fin.ext (by
    have hn := n.isLt
    have hk := k.isLt
    match a with
    | ⟨0, _⟩ => show (n.val * 8192 + k.val) / 131072 = n.val / 16; omega
    | ⟨1, _⟩ => show (n.val * 8192 + k.val) / 1 % 8192 = k.val; omega)

/-- … and from row n % 16 of the column B. -/
theorem bidx_eq (n k : Fin 8192) : idx_main_v1 (idx_main_v3 (idx_main_v5 (ix2 n k))) = ix2 (Cert.Lokr.lo n) 0 :=
  funext fun a => Fin.ext (by
    have hn := n.isLt
    have hk := k.isLt
    match a with
    | ⟨0, _⟩ => show (n.val * 8192 + k.val) / 8192 % 16 = n.val % 16; omega
    | ⟨1, _⟩ => rfl)

/-- The reference's result is the merged form. -/
theorem ref_eq (x0 : (⟨Cert.ReferenceIdeal.S128x8192, .f32⟩ : BufTy).Contents (Elt Ideal)) (x1 : (⟨Cert.ReferenceIdeal.S8192x8192, .f32⟩ : BufTy).Contents (Elt Ideal)) (x2 : (⟨Cert.ReferenceIdeal.S512x8192, .f32⟩ : BufTy).Contents (Elt Ideal)) (x3 : (⟨Cert.ReferenceIdeal.S16x1, .f32⟩ : BufTy).Contents (Elt Ideal)) (x4 : (⟨Cert.ReferenceIdeal.S1, .f32⟩ : BufTy).Contents (Elt Ideal)) :
    Cert.ReferenceIdeal.Read.val_main_v13 (F := Ideal) x0 x1 x2 x3 x4 = Cert.Lokr.merged x0 x1 x2 x3 x4 := by
  funext i
  obtain ⟨p, n, rfl⟩ : ∃ (p : Fin 128) (n : Fin 8192), i = ix2 p n := ⟨i 0, i 1, eq_ix2 i⟩
  rw [val_main_v13_apply]
  show _ = Cert.Lokr.mergedAt x0 x1 x2 x3 x4 p n
  unfold Cert.Lokr.mergedAt
  refine Finset.sum_congr rfl fun k _ => ?_
  rw [lidx_eq, val_main_v12_apply, ridx_eq, val_main_v11_apply, val_main_v10_apply, val_main_v9_apply,
    val_main_v8_apply, val_main_v7_apply, val_main_v6_apply, val_main_cst_apply, val_main_v5_apply,
    val_main_v4_apply, val_main_v2_apply, val_main_v0_apply, val_main_v3_apply, val_main_v1_apply,
    aidx_eq, bidx_eq]
  rfl

end Cert.ReferenceIdeal.RefValue

end
-- ==== Proof.Pieces.lean ====
/-
  What one run of the kernel body leaves behind, as values.

  The body keeps a 128×1024 accumulator in scratch.  At the first contraction step of an output tile it stores zeros
  into the accumulator; at every step it reads the accumulator, adds the product of the two staged blocks, stores the
  sum back, reads it once more and stores that into the output's staging buffer.  So after a step the accumulator and
  the output buffer hold the same array: `acc + x·wᵀ`, where `acc` is the zero array at a first step and what the step
  before left otherwise.  Each of the four statements below reads the stores the run found (whole-buffer stores, the
  last one deciding) back as that one value.
-/
import proofs.«131442_j70806830841898_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A later step: the accumulator ends at the old accumulator plus this step's product. -/
theorem acc_later (c : Dev nD) (i : grid0.Coords) (a2 : Memref sig .tc .vmem S128x2048 .f32) (h2 : a2.IsWhole)
    (a3 : Memref sig .tc .vmem S1024x2048 .f32) (h3 : a3.IsWhole) (a4 : Memref sig .tc .vmem S128x1024 .f32) (h4 : a4.IsWhole)
    (a5 : Memref sig .tc .vmem S128x1024 .f32) (h5 : a5.IsWhole) (hc : ¬cond0_0 i)
    (x0 : Vec F S128x2048 .f32) (x1 : Vec F S1024x2048 .f32) (xs : Vec F S128x1024 .f32) :
    sout0_B_0 c i a2 h2 a3 h3 a4 h4 a5 h5 hc x0 x1 xs = k0_pay2 x0 x1 xs := by
  unfold sout0_B_0
  rw [View.read_writes_eq_canon _ _ _ (scover0_B_0 c i a2 h2 a3 h3 a4 h4 a5 h5 hc x0 x1 xs)]
  unfold kernelRun0_B
  dsimp only
  sl_unfold_words
  rw [View.canon_unit_zero hz]
  simp only [View.readAt_eq_ld, h2.read_unread, h3.read_unread, h5.read_unread, View.ld_unit_zero (S := S128x2048) hz,
    View.ld_unit_zero (S := S1024x2048) hz, View.ld_unit_zero (S := S128x1024) hz]

/-- A later step: the output buffer ends at the same array, the accumulator read back after its store. -/
theorem out_later (c : Dev nD) (i : grid0.Coords) (a2 : Memref sig .tc .vmem S128x2048 .f32) (h2 : a2.IsWhole)
    (a3 : Memref sig .tc .vmem S1024x2048 .f32) (h3 : a3.IsWhole) (a4 : Memref sig .tc .vmem S128x1024 .f32) (h4 : a4.IsWhole)
    (a5 : Memref sig .tc .vmem S128x1024 .f32) (h5 : a5.IsWhole) (hc : ¬cond0_0 i)
    (x0 : Vec F S128x2048 .f32) (x1 : Vec F S1024x2048 .f32) (xs : Vec F S128x1024 .f32) :
    out0_B_2 c i a2 h2 a3 h3 a4 h4 a5 h5 hc x0 x1 xs = k0_pay2 x0 x1 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz, View.readCov_unit_zero (S := S128x1024) _ hz]
  simp only [View.readAt_eq_ld, h2.read_unread, h3.read_unread, h5.read_unread, View.ld_unit_zero (S := S128x2048) hz,
    View.ld_unit_zero (S := S1024x2048) hz, View.ld_unit_zero (S := S128x1024) hz]

/-- A first step: the accumulator is zeroed, read back, and ends at zero plus this step's product. -/
theorem acc_first (c : Dev nD) (i : grid0.Coords) (a2 : Memref sig .tc .vmem S128x2048 .f32) (h2 : a2.IsWhole)
    (a3 : Memref sig .tc .vmem S1024x2048 .f32) (h3 : a3.IsWhole) (a4 : Memref sig .tc .vmem S128x1024 .f32) (h4 : a4.IsWhole)
    (a5 : Memref sig .tc .vmem S128x1024 .f32) (h5 : a5.IsWhole) (hc : cond0_0 i)
    (x0 : Vec F S128x2048 .f32) (x1 : Vec F S1024x2048 .f32) :
    sout0_A_0 c i a2 h2 a3 h3 a4 h4 a5 h5 hc x0 x1 = k0_pay2 x0 x1 k0_pay1 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S128x1024) hz, View.readCov_unit_zero (S := S128x1024) _ hz]
  simp only [View.readAt_eq_ld, h2.read_unread, h3.read_unread, View.ld_unit_zero (S := S128x2048) hz,
    View.ld_unit_zero (S := S1024x2048) hz]

/-- A first step: the output buffer ends at the same array. -/
theorem out_first (c : Dev nD) (i : grid0.Coords) (a2 : Memref sig .tc .vmem S128x2048 .f32) (h2 : a2.IsWhole)
    (a3 : Memref sig .tc .vmem S1024x2048 .f32) (h3 : a3.IsWhole) (a4 : Memref sig .tc .vmem S128x1024 .f32) (h4 : a4.IsWhole)
    (a5 : Memref sig .tc .vmem S128x1024 .f32) (h5 : a5.IsWhole) (hc : cond0_0 i)
    (x0 : Vec F S128x2048 .f32) (x1 : Vec F S1024x2048 .f32) :
    out0_A_2 c i a2 h2 a3 h3 a4 h4 a5 h5 hc x0 x1 = k0_pay2 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz,
    View.readCov_eq_canon_ld _ _ _ (fun y => ⟨_, List.mem_cons_self .., View.mem_set_unit_zero hz Facts₀.inb_S128x1024_S128x1024_0_0 y⟩),
    View.canon_cons_unit_zero (S := S128x1024) hz, View.readCov_unit_zero (S := S128x1024) _ hz]
  simp only [View.readAt_eq_ld, h2.read_unread, h3.read_unread, View.ld_unit_zero (S := S128x2048) hz,
    View.ld_unit_zero (S := S1024x2048) hz, View.ld_unit_zero (S := S128x1024) hz]

end Cert.KernelIdeal.Acc

end
-- ==== Proof.Payload.lean ====
/-
  One step's arithmetic at an index, over the extended reals.

  The body's one arithmetic value is `acc + x · (wᵀ)`: the staged 128×2048 block `x` and the staged 1024×2048 block `w`
  are narrowed (the identity on extended reals), `w` is transposed, and the matrix unit multiplies them into a zero
  accumulator; the old accumulator is added.  At entry `(p, q)` that is `acc[p,q] + Σ_k x[p,k]·w[q,k]` over the 2048
  columns of the two blocks; the zero array the first step starts from is `0` at every entry.
-/
import proofs.«131442_j70806830841898_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen

/-- The left operand's row is the output's row; -/
theorem lhs_row (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
/-- its column is the contraction index; -/
theorem lhs_col (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
/-- the right operand's row is the contraction index; -/
theorem rhs_row (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
/-- its column is the output's column. -/
theorem rhs_col (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The transposed block at `(k, q)` is the block at `(q, k)`. -/
theorem transposed_apply (w : FVec Ideal S1024x2048 .bf16) (k : Fin 2048) (q : Fin 1024) :
    transpose S2048x1024 [1, 0] w transposes_S1024x2048_p1_0_S2048x1024 (ix2 k q) = w (ix2 q k) :=
  transpose_apply [1, 0] w transposes_S1024x2048_p1_0_S2048x1024 (ix2 k q) (ix2 q k) (fun b => match b with
    | ⟨0, _⟩ => rfl
    | ⟨1, _⟩ => rfl)

/-- The product into a zero accumulator at `(p, q)`: the sum over the 2048 shared columns. -/
theorem product_apply (x : FVec Ideal S128x2048 .bf16) (w : FVec Ideal S2048x1024 .bf16) (p : Fin 128) (q : Fin 1024) :
    matmul dot_S128x2048_S2048x1024_S128x1024_1_0_0_1_n_n none x w (constant S128x1024 .f32 0x00000000#32) (ix2 p q)
      = ∑ k : Fin 2048, x (ix2 p k) * w (ix2 k q) := by
  show FloatOps.matmul dot_S128x2048_S2048x1024_S128x1024_1_0_0_1_n_n none x w (constant S128x1024 .f32 0x00000000#32) (ix2 p q) = _
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p q) ((ValueIdx.contrEquiv1 dot_S128x2048_S2048x1024_S128x1024_1_0_0_1_n_n 2048 rfl rfl).symm k) = ix2 p k := funext fun a => Fin.ext (by
    match a with
    | ⟨0, _⟩ => exact lhs_row _ _
    | ⟨1, _⟩ => exact (lhs_col _ _).trans hk)
  have er : dot_S128x2048_S2048x1024_S128x1024_1_0_0_1_n_n.rhsIdx (ix2 p q) ((ValueIdx.contrEquiv1 dot_S128x2048_S2048x1024_S128x1024_1_0_0_1_n_n 2048 rfl rfl).symm k) = ix2 k q := funext fun a => Fin.ext (by
    match a with
    | ⟨0, _⟩ => exact (rhs_row _ _).trans hk
    | ⟨1, _⟩ => exact rhs_col _ _)
  rw [el, er]

/-- One step at `(p, q)`: the old accumulator there plus the blocks' product there. -/
theorem step_apply (x : Vec Ideal S128x2048 .f32) (w : Vec Ideal S1024x2048 .f32) (acc : Vec Ideal S128x1024 .f32)
    (p : Fin 128) (q : Fin 1024) :
    k0_pay2 (F := Ideal) x w acc (ix2 p q) = acc (ix2 p q) + ∑ k : Fin 2048, x (ix2 p k) * w (ix2 q k) := by
  unfold k0_pay2
  rw [shapeCast_self]
  show acc (ix2 p q) + matmul (F := Ideal) dot_S128x2048_S2048x1024_S128x1024_1_0_0_1_n_n none _ _ (constant (F := Ideal) S128x1024 .f32 0x00000000#32) (ix2 p q) = _
  rw [product_apply]
  refine congrArg (acc (ix2 p q) + ·) (Finset.sum_congr rfl fun k _ => ?_)
  rw [transposed_apply]
  rfl

/-- The array a first step starts from is zero everywhere. -/
theorem zero_apply (i : S128x1024.Idx) : k0_pay1 (F := Ideal) i = 0 := by
  unfold k0_pay1
  rw [shapeCast_self]
  show Ideal.ofBits .f32 0x00000000#32 = 0
  exact Ideal.ofBits_zero_f32

end Cert.KernelIdeal.Acc

end
-- ==== Proof.Accumulate.lean ====
/-
  What the output's staging buffer holds after each grid point, and what the main product's array ends holding.

  The grid is 8 output tiles × 4 contraction steps, the step moving fastest: point `t` works on output columns
  `[1024·(t / 4), 1024·(t / 4) + 1024)` and on contraction columns `[2048·(t % 4), 2048·(t % 4) + 2048)`.  Its two
  staged blocks are those columns of `X` and those rows and columns of `W`.  The accumulator starts from zero at step 0
  of a tile and gains one block product per step, so after step `j` of tile `n` it holds the partial sum over the first
  `j + 1` column groups; after step 3 that is the whole sum over the 8192 columns — regrouped, which in a commutative
  monoid changes nothing.  The output is written back after step 3 of each tile, and the eight tiles cover the array.
-/
import proofs.«131442_j70806830841898_1_alg».proof.Proof.Pieces
import proofs.«131442_j70806830841898_1_alg».proof.Proof.Payload
import proofs.«131442_j70806830841898_1_alg».proof.Proof.Spec
import Mathlib.Algebra.BigOperators.Fin
import Mathlib.Logic.Equiv.Fin.Basic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-! ## Names of literal type for the blocks and the arrays -/

/-- Point `t`'s block of `X`, -/
abbrev xblk (c : Dev nD) (t : Fin cfg0.N) : Vec Ideal S128x2048 .f32 := iblk m c 0 t
/-- its block of `W`, -/
abbrev wblk (c : Dev nD) (t : Fin cfg0.N) : Vec Ideal S1024x2048 .f32 := iblk m c 1 t
/-- the array `X` as the region finds it, -/
abbrev xarr (c : Dev nD) : Vec Ideal S128x8192 .f32 := V m c main_arg0
/-- and the array `W`. -/
abbrev warr (c : Dev nD) : Vec Ideal S8192x8192 .f32 := V m c main_arg1

theorem lt32 (t : Fin cfg0.N) : t.val < 32 := lt_of_lt_of_eq t.isLt (show cfg0.N = 32 from N_0)

/-- Column `k` of contraction group `j` (read modulo 4, so that it is total in `j`). -/
abbrev colN (j : ℕ) (k : Fin 2048) : Fin 8192 := ⟨(j % 4) * 2048 + k.val, by have := k.isLt; have := Nat.mod_lt j (show 0 < 4 by decide); omega⟩
/-- Output column `q` of tile `n` (read modulo 8). -/
abbrev rowN (n : ℕ) (q : Fin 1024) : Fin 8192 := ⟨(n % 8) * 1024 + q.val, by have := q.isLt; have := Nat.mod_lt n (show 0 < 8 by decide); omega⟩

/-! ## Where the windows' blocks sit -/

theorem where_x : ∀ t : Fin cfg0.N, win0_0.index t (0 : Fin 2) = 0 ∧ win0_0.index t (1 : Fin 2) = t.val % 4 :=
  (by decide +kernel : ∀ t : Fin grid0.N, win0_0.index t (0 : Fin 2) = 0 ∧ win0_0.index t (1 : Fin 2) = t.val % 4)
theorem where_w : ∀ t : Fin cfg0.N, win0_1.index t (0 : Fin 2) = t.val / 4 ∧ win0_1.index t (1 : Fin 2) = t.val % 4 :=
  (by decide +kernel : ∀ t : Fin grid0.N, win0_1.index t (0 : Fin 2) = t.val / 4 ∧ win0_1.index t (1 : Fin 2) = t.val % 4)
theorem where_o : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)

/-- The block of `X` at point `t` is `X`'s column group `t % 4`. -/
theorem xblk_apply (c : Dev nD) (t : Fin cfg0.N) (p : Fin 128) (k : Fin 2048) :
    xblk m c t (ix2 p k) = xarr m c (ix2 p (colN (t.val % 4) k)) := by
  show V m c main_arg0 (((cfg0.win 0).blk t).view.emb (ix2 p k)) = V m c main_arg0 (ix2 p (colN (t.val % 4) k))
  refine congrArg (V m c main_arg0) (funext fun a => Fin.ext ?_)
  match a with
  | ⟨0, _⟩ => show win0_0.index t (0 : Fin 2) * 128 + 1 * p.val = p.val; rw [(where_x t).1]; omega
  | ⟨1, _⟩ => show win0_0.index t (1 : Fin 2) * 2048 + 1 * k.val = (t.val % 4 % 4) * 2048 + k.val; rw [(where_x t).2]; omega

/-- The block of `W` at point `t` is rows `1024·(t / 4) + ·`, column group `t % 4`. -/
theorem wblk_apply (c : Dev nD) (t : Fin cfg0.N) (q : Fin 1024) (k : Fin 2048) :
    wblk m c t (ix2 q k) = warr m c (ix2 (rowN (t.val / 4) q) (colN (t.val % 4) k)) := by
  show V m c main_arg1 (((cfg0.win 1).blk t).view.emb (ix2 q k)) = V m c main_arg1 (ix2 (rowN (t.val / 4) q) (colN (t.val % 4) k))
  refine congrArg (V m c main_arg1) (funext fun a => Fin.ext ?_)
  have := lt32 t
  match a with
  | ⟨0, _⟩ => show win0_1.index t (0 : Fin 2) * 1024 + 1 * q.val = (t.val / 4 % 8) * 1024 + q.val; rw [(where_w t).1]; omega
  | ⟨1, _⟩ => show win0_1.index t (1 : Fin 2) * 2048 + 1 * k.val = (t.val % 4 % 4) * 2048 + k.val; rw [(where_w t).2]; omega

/-! ## Regrouping the 8192 columns into four groups of 2048 -/

/-- A sum over the 8192 columns is the sum of the four groups' sums. -/
theorem sum_cols {M : Type*} [AddCommMonoid M] (f : Fin 8192 → M) :
    ∑ k, f k = (((∑ k : Fin 2048, f (colN 0 k)) + ∑ k : Fin 2048, f (colN 1 k)) + ∑ k : Fin 2048, f (colN 2 k))
      + ∑ k : Fin 2048, f (colN 3 k) := by
  have e : ∑ k, f k = ∑ x : Fin 4 × Fin 2048, f (finProdFinEquiv x) :=
    (Equiv.sum_comp (finProdFinEquiv : Fin 4 × Fin 2048 ≃ Fin (4 * 2048)) f).symm
  have hc : ∀ (j : Fin 4) (k : Fin 2048), (finProdFinEquiv (j, k) : Fin (4 * 2048)) = colN j.val k := fun j k => Fin.ext (by
    show k.val + 2048 * j.val = (j.val % 4) * 2048 + k.val
    have := j.isLt; omega)
  rw [e, Fintype.sum_prod_type, Fin.sum_univ_four]
  simp only [hc]
  rfl

/-! ## One point's product, and the running sums -/

/-- The product of column group `j` at output `(p, 1024·n + q)`. -/
def groupSum (c : Dev nD) (n j : ℕ) (p : Fin 128) (q : Fin 1024) : EReal :=
  ∑ k : Fin 2048, xarr m c (ix2 p (colN j k)) * warr m c (ix2 (rowN n q) (colN j k))

/-- The sum of the first `j + 1` groups of tile `n`, in the order the grid adds them, from zero. -/
def runningSum (c : Dev nD) (n : ℕ) : ℕ → Fin 128 → Fin 1024 → EReal
  | 0 => fun p q => 0 + groupSum m c n 0 p q
  | j + 1 => fun p q => runningSum c n j p q + groupSum m c n (j + 1) p q

/-- The product of point `t`'s two blocks is the product of its column group on its tile. -/
theorem blocks_product (c : Dev nD) (n : ℕ) (h : n < cfg0.N) (p : Fin 128) (q : Fin 1024) :
    ∑ k : Fin 2048, xblk m c ⟨n, h⟩ (ix2 p k) * wblk m c ⟨n, h⟩ (ix2 q k) = groupSum m c (n / 4) (n % 4) p q :=
  Finset.sum_congr rfl fun k _ => by rw [xblk_apply, wblk_apply]

/-- At a first step both buffers hold zero plus the step's product; -/
theorem first_step (c : Dev nD) (n : ℕ) (h : n < cfg0.N) (h0 : n % 4 = 0) :
    outsAt0 m c n h = (k0_pay2 (xblk m c ⟨n, h⟩) (wblk m c ⟨n, h⟩) (k0_pay1 (F := Ideal)), k0_pay2 (xblk m c ⟨n, h⟩) (wblk m c ⟨n, h⟩) (k0_pay1 (F := Ideal))) :=
  (outsAt0_A m c ⟨n, h⟩ h0).trans (congr (congrArg Prod.mk
    (out_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (iblk m c 0 ⟨n, h⟩) (iblk m c 1 ⟨n, h⟩)))
    (acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (iblk m c 0 ⟨n, h⟩) (iblk m c 1 ⟨n, h⟩)))

/-- at a later step, what the accumulator held after the point before plus the step's product. -/
theorem later_step (c : Dev nD) (n : ℕ) (h : n + 1 < cfg0.N) (h0 : ¬(n + 1) % 4 = 0) :
    outsAt0 m c (n + 1) h = (k0_pay2 (xblk m c ⟨n + 1, h⟩) (wblk m c ⟨n + 1, h⟩) (outsAt0 m c n (Nat.lt_of_succ_lt h)).2,
      k0_pay2 (xblk m c ⟨n + 1, h⟩) (wblk m c ⟨n + 1, h⟩) (outsAt0 m c n (Nat.lt_of_succ_lt h)).2) :=
  (outsAt0_B m c ⟨n + 1, h⟩ h0).trans (congr (congrArg Prod.mk
    (out_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (iblk m c 0 ⟨n + 1, h⟩) (iblk m c 1 ⟨n + 1, h⟩) (outsAt0 m c n (Nat.lt_of_succ_lt h)).2))
    (acc_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (iblk m c 0 ⟨n + 1, h⟩) (iblk m c 1 ⟨n + 1, h⟩) (outsAt0 m c n (Nat.lt_of_succ_lt h)).2))

/-- After point `n` the output's staging buffer and the accumulator both hold the running sum of tile `n / 4` up to
    group `n % 4` — by induction on the point. -/
theorem running (c : Dev nD) : ∀ (n : ℕ) (h : n < cfg0.N) (p : Fin 128) (q : Fin 1024),
    (outsAt0 m c n h).1 (ix2 p q) = runningSum m c (n / 4) (n % 4) p q
      ∧ (outsAt0 m c n h).2 (ix2 p q) = runningSum m c (n / 4) (n % 4) p q
  | 0, h, p, q => by
    rw [first_step m c 0 h rfl]
    dsimp only
    rw [step_apply, zero_apply, blocks_product]
    exact ⟨rfl, rfl⟩
  | n + 1, h, p, q => by
    by_cases h0 : (n + 1) % 4 = 0
    · rw [first_step m c (n + 1) h h0]
      dsimp only
      rw [step_apply, zero_apply, blocks_product, h0]
      exact ⟨rfl, rfl⟩
    · rw [later_step m c n h h0]
      dsimp only
      rw [step_apply, blocks_product, (running c n (Nat.lt_of_succ_lt h) p q).2]
      have hq : (n + 1) / 4 = n / 4 := by omega
      have hr : (n + 1) % 4 = n % 4 + 1 := by omega
      rw [hq, hr]
      exact ⟨rfl, rfl⟩

/-- After step 3 the running sum is the whole sum over the 8192 columns. -/
theorem running_three (c : Dev nD) (n : ℕ) (p : Fin 128) (q : Fin 1024) :
    runningSum m c n 3 p q = Cert.Lokr.mainAt (xarr m c) (warr m c) p (rowN n q) := by
  show (((0 + groupSum m c n 0 p q) + groupSum m c n 1 p q) + groupSum m c n 2 p q) + groupSum m c n 3 p q = _
  unfold Cert.Lokr.mainAt groupSum
  rw [zero_add, sum_cols (fun k => xarr m c (ix2 p k) * warr m c (ix2 (rowN n q) k))]

/-! ## The main product's array after the region -/

/-- `X · Wᵀ` of the arrays as the region finds them, as contents of the output array. -/
abbrev mainArr (c : Dev nD) : Buf (Elt Ideal) ((c : Thread nD τ).loc main_v0) :=
  fun i => Cert.Lokr.mainAt (xarr m c) (warr m c) (i 0) (i 1)

/-- After step 3 of a tile the output's staging buffer holds that tile of `X · Wᵀ`. -/
theorem tile_apply (c : Dev nD) (t : Fin cfg0.N) (h3 : t.val % 4 = 3) (y : S128x1024.Idx) :
    (outsAt0 m c t.val t.isLt).1 y = Cert.Lokr.mainAt (xarr m c) (warr m c) (y 0) (rowN (t.val / 4) (y 1)) := by
  have hy : y = ix2 (y 0 : Fin 128) (y 1 : Fin 1024) := eq_ix2 (n0 := 128) (n1 := 1024) y
  refine (congrArg (outsAt0 m c t.val t.isLt).1 hy).trans ?_
  exact (running m c t.val t.isLt (y 0) (y 1)).1.trans
    ((congrArg (fun j => runningSum m c (t.val / 4) j (y 0) (y 1)) h3).trans (running_three m c (t.val / 4) (y 0) (y 1)))

/-- What a write-back writes (after step 3 of a tile) is that tile of `X · Wᵀ`. -/
theorem flushed_eq (c : Dev nD) (t : Fin cfg0.N) (hf : (cfg0.win 2).flush t = true) :
    (dats m 0 c).flushed 2 t = ((cfg0.win 2).blk t).view.read (Elt Ideal) (mainArr m c) := by
  have h3 : t.val % 4 = 3 := (flush0_2 t).mp hf
  have hN := lt32 t
  show (cfg0.win 2).cut (grid0.coords t) ((dats m 0 c).after 2 t) = _
  rw [after0_2]
  funext j
  refine (tile_apply m c t h3 _).trans ?_
  refine congr (congrArg (Cert.Lokr.mainAt (xarr m c) (warr m c)) (Fin.ext ?_)) (Fin.ext ?_)
  · show (j 0).val = win0_2.index t (0 : Fin 2) * 128 + 1 * (j 0).val
    rw [(where_o t).1]; omega
  · show (t.val / 4 % 8) * 1024 + (j 1).val = win0_2.index t (1 : Fin 2) * 1024 + 1 * (j 1).val
    rw [(where_o t).2]; omega

/-- An index of the output array is in point `t`'s block iff each coordinate is in the block's range. -/
theorem mem_blk (t : Fin cfg0.N) (i : S128x8192.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v0).slice (win0_2.rect t)).set ↔ _
  rw [View.set_slice_whole, Rect.mem_set_unit]
  exact Iff.rfl

/-- The eight write-backs cover the array (column `N` lies in tile `N / 1024`), so it ends at `X · Wᵀ`. -/
theorem final_main (c : Dev nD) : (dats m 0 c).arrAt 2 cfg0.N = mainArr m c :=
  (dats m 0 c).arrAt_eq_of_cover 2 (mainArr m c) (flushed_eq m c) fun i => by
    have hi0 : (i 0).val < 128 := (i 0).isLt
    have hi1 : (i 1).val < 8192 := (i 1).isLt
    let t : Fin cfg0.N := ⟨4 * ((i 1).val / 1024) + 3, by rw [show cfg0.N = 32 from N_0]; omega⟩
    have ht : t.val = 4 * ((i 1).val / 1024) + 3 := rfl
    refine ⟨t, (flush0_2 t).mpr (by rw [ht]; omega), ?_⟩
    rw [mem_blk]
    intro a
    match a with
    | ⟨0, _⟩ =>
      show win0_2.index t (0 : Fin 2) * 128 ≤ (i 0).val ∧ (i 0).val < win0_2.index t (0 : Fin 2) * 128 + 128
      rw [(where_o t).1]; omega
    | ⟨1, _⟩ =>
      show win0_2.index t (1 : Fin 2) * 1024 ≤ (i 1).val ∧ (i 1).val < win0_2.index t (1 : Fin 2) * 1024 + 1024
      rw [(where_o t).2, ht]; omega

end Cert.KernelIdeal.Acc

end
-- ==== Proof.Tail.lean ====
/-
  The host operations that follow the kernel region, read at the extended reals.

  After the region the program holds the main product in its output array and then computes, from the arguments
  X (128×8192), A (512×8192), B (16×1) and s (1), the low-rank correction
      (s·2) · ((X · Aᵀ)[p, n / 16] · B[n % 16])
  by seventeen layout and arithmetic operations, and adds it to the output.  Each operation that moves data is read
  here at explicit coordinates; chained, they give the correction of the specification entry by entry.
-/
import proofs.«131442_j70806830841898_1_alg».proof.Proof.Gen.KernelIdeal.Frame
import proofs.«131442_j70806830841898_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Tail

open Cert.KernelIdeal Cert.KernelIdeal.Gen
open Idealize.ShloMosaic Idealize.ShloMosaic.TcCoe Idealize.SL.Sem Idealize.ShloMosaic.StableHlo
open Idealize.ShloMosaic.ValueIdx

/-! ## The layout operations, each at explicit coordinates -/

/-- The column B, a 16×1 array, flattened: entry j is B[j, 0]. -/
theorem flatB_apply (x3 : FVec Ideal S16x1 .f32) (j : Fin 16) :
    shapeCast S16 x3 shapeCasts_S16x1_S16 (ix1 j) = x3 (ix2 j (0 : Fin 1)) :=
  shapeCast_apply x3 shapeCasts_S16x1_S16 (ix1 j) (ix2 j (0 : Fin 1)) (by
    rw [Shape.rowMajor_val_two, Shape.rowMajor_val_one]
    show j.val * 1 + 0 = j.val
    omega)

/-- The sixteen entries as one row. -/
theorem rowB_apply (y : FVec Ideal S16 .f32) (j : Fin 16) :
    shapeCast S1x16 y shapeCasts_S16_S1x16 (ix2 (0 : Fin 1) j) = y (ix1 j) :=
  shapeCast_a_1a_apply y shapeCasts_S16_S1x16 0 j

/-- The row repeated 512 times: entry (i, j) is the row's entry j. -/
theorem tileB_apply (y : FVec Ideal S1x16 .f32) (i : Fin 512) (j : Fin 16) :
    broadcastInDim S512x16 ![0, 1] bcast_S1x16_S512x16_0_1 y (ix2 i j) = y (ix2 (0 : Fin 1) j) :=
  broadcastInDim_apply _ bcast_S1x16_S512x16_0_1 y (ix2 i j) (ix2 (0 : Fin 1) j) (fun a => match a with
    | ⟨0, _⟩ => by show 0 = if (1 : Nat) = 1 then 0 else i.val; rw [if_pos rfl]
    | ⟨1, _⟩ => by show j.val = if (16 : Nat) = 1 then 0 else j.val; rw [if_neg (by decide)])

/-- The 512×16 tiling flattened to 8192 entries: entry n is the tiling at (n / 16, n % 16). -/
theorem flatTile_apply (y : FVec Ideal S512x16 .f32) (n : Fin 8192) :
    shapeCast S8192 y shapeCasts_S512x16_S8192 (ix1 n) = y (ix2 (Cert.Lokr.hi n) (Cert.Lokr.lo n)) :=
  shapeCast_apply y shapeCasts_S512x16_S8192 (ix1 n) (ix2 (Cert.Lokr.hi n) (Cert.Lokr.lo n)) (by
    rw [Shape.rowMajor_val_two, Shape.rowMajor_val_one]
    show n.val / 16 * 16 + n.val % 16 = n.val
    omega)

/-- The 8192 entries as one row. -/
theorem rowTile_apply (y : FVec Ideal S8192 .f32) (n : Fin 8192) :
    broadcastInDim S1x8192 ![1] bcast_S8192_S1x8192_1 y (ix2 (0 : Fin 1) n) = y (ix1 n) :=
  broadcastInDim_apply _ bcast_S8192_S1x8192_1 y (ix2 (0 : Fin 1) n) (ix1 n) (fun a => match a with
    | ⟨0, _⟩ => by show n.val = if (8192 : Nat) = 1 then 0 else n.val; rw [if_neg (by decide)])

/-- The row repeated 128 times: entry (p, n) is the row's entry n. -/
theorem rowsTile_apply (y : FVec Ideal S1x8192 .f32) (p : Fin 128) (n : Fin 8192) :
    broadcastInDim S128x8192 ![0, 1] bcast_S1x8192_S128x8192_0_1 y (ix2 p n) = y (ix2 (0 : Fin 1) n) :=
  broadcastInDim_apply _ bcast_S1x8192_S128x8192_0_1 y (ix2 p n) (ix2 (0 : Fin 1) n) (fun a => match a with
    | ⟨0, _⟩ => by show 0 = if (1 : Nat) = 1 then 0 else p.val; rw [if_pos rfl]
    | ⟨1, _⟩ => by show n.val = if (8192 : Nat) = 1 then 0 else n.val; rw [if_neg (by decide)])

/-- The 128×512 product spread over a new last axis of sixteen: entry (p, i, j) is the product's (p, i). -/
theorem spread_apply (y : FVec Ideal S128x512 .f32) (p : Fin 128) (i : Fin 512) (j : Fin 16) :
    broadcastInDim S128x512x16 ![0, 1] bcast_S128x512_S128x512x16_0_1 y (ix3 p i j) = y (ix2 p i) :=
  broadcastInDim_apply _ bcast_S128x512_S128x512x16_0_1 y (ix3 p i j) (ix2 p i) (fun a => match a with
    | ⟨0, _⟩ => by show p.val = if (128 : Nat) = 1 then 0 else p.val; rw [if_neg (by decide)]
    | ⟨1, _⟩ => by show i.val = if (512 : Nat) = 1 then 0 else i.val; rw [if_neg (by decide)])

/-- The 128×512×16 array with its last two axes merged: entry (p, n) is the array at (p, n / 16, n % 16). -/
theorem merge_apply (y : FVec Ideal S128x512x16 .f32) (p : Fin 128) (n : Fin 8192) :
    shapeCast S128x8192 y shapeCasts_S128x512x16_S128x8192 (ix2 p n) = y (ix3 p (Cert.Lokr.hi n) (Cert.Lokr.lo n)) :=
  shapeCast_apply y shapeCasts_S128x512x16_S128x8192 (ix2 p n) (ix3 p (Cert.Lokr.hi n) (Cert.Lokr.lo n)) (by
    rw [Shape.rowMajor_val_three, Shape.rowMajor_val_two]
    show (p.val * 512 + n.val / 16) * 16 + n.val % 16 = p.val * 8192 + n.val
    omega)

/-- The one-entry array s as a scalar: its one entry. -/
theorem scalar_apply (x4 : FVec Ideal S1 .f32) (j : S_.Idx) :
    shapeCast S_ x4 shapeCasts_S1_S_ j = x4 (ix1 (0 : Fin 1)) :=
  shapeCast_apply x4 shapeCasts_S1_S_ j (ix1 (0 : Fin 1)) (by
    have h0 := (S1.rowMajor (ix1 (0 : Fin 1))).isLt
    have h1 := (S_.rowMajor j).isLt
    have e0 : S1.numel = 1 := by decide
    have e1 : S_.numel = 1 := by decide
    omega)

/-- A scalar repeated over the 128×8192 array: every entry is the scalar. -/
theorem fill_apply (y : FVec Ideal S_ .f32) (i : S128x8192.Idx) :
    broadcastInDim S128x8192 ![] bcast_S_S128x8192 y i = y ix0 :=
  broadcastInDim_apply _ bcast_S_S128x8192 y i ix0 (fun a => a.elim0)

/-- A transposed: entry (k, i) is A[i, k]. -/
theorem transA_apply (x2 : FVec Ideal S512x8192 .f32) (k : Fin 8192) (i : Fin 512) :
    transpose S8192x512 [1, 0] x2 transposes_S512x8192_S8192x512_1_0 (ix2 k i) = x2 (ix2 i k) :=
  transpose_ix2_apply x2 transposes_S512x8192_S8192x512_1_0 k i

/-! ## The host contraction X · Aᵀ at an entry -/

theorem lhs_axis0 (i : S128x512.Idx) (q : dot_S128x8192_S8192x512_S128x512_1_0_0_1_n_n.contr.Idx) :
    (dot_S128x8192_S8192x512_S128x512_1_0_0_1_n_n.lhsIdx i q 0).val = (i 0).val := by
  unfold DotDims.lhsIdx
  rw [dif_neg (show ¬(0 : Fin S128x8192.rank) ∈ dot_S128x8192_S8192x512_S128x512_1_0_0_1_n_n.lhsBatch by decide),
    dif_pos (show (0 : Fin S128x8192.rank) ∈ dot_S128x8192_S8192x512_S128x512_1_0_0_1_n_n.lhsNonContracting by decide)]
  rfl
theorem lhs_axis1 (i : S128x512.Idx) (q : dot_S128x8192_S8192x512_S128x512_1_0_0_1_n_n.contr.Idx) :
    (dot_S128x8192_S8192x512_S128x512_1_0_0_1_n_n.lhsIdx i q 1).val = (q ⟨0, by decide⟩).val :=
  dot_S128x8192_S8192x512_S128x512_1_0_0_1_n_n.lhsIdx_val_of_single rfl i q
theorem rhs_axis0 (i : S128x512.Idx) (q : dot_S128x8192_S8192x512_S128x512_1_0_0_1_n_n.contr.Idx) :
    (dot_S128x8192_S8192x512_S128x512_1_0_0_1_n_n.rhsIdx i q 0).val = (q ⟨0, by decide⟩).val :=
  dot_S128x8192_S8192x512_S128x512_1_0_0_1_n_n.rhsIdx_val_of_single rfl i q
theorem rhs_axis1 (i : S128x512.Idx) (q : dot_S128x8192_S8192x512_S128x512_1_0_0_1_n_n.contr.Idx) :
    (dot_S128x8192_S8192x512_S128x512_1_0_0_1_n_n.rhsIdx i q 1).val = (i 1).val := by
  unfold DotDims.rhsIdx
  rw [dif_neg (show ¬(1 : Fin S8192x512.rank) ∈ dot_S128x8192_S8192x512_S128x512_1_0_0_1_n_n.rhsBatch by decide),
    dif_pos (show (1 : Fin S8192x512.rank) ∈ dot_S128x8192_S8192x512_S128x512_1_0_0_1_n_n.rhsNonContracting by decide)]
  rfl

/-- Entry (p, i) of the host product of a 128×8192 with an 8192×512 array: the sum over the shared axis. -/
theorem dot_apply (x0 : FVec Ideal S128x8192 .f32) (y : FVec Ideal S8192x512 .f32) (p : Fin 128) (i : Fin 512) :
    Host.dotGeneral dot_S128x8192_S8192x512_S128x512_1_0_0_1_n_n none x0 y (ix2 p i)
      = ∑ k : Fin 8192, x0 (ix2 p k) * y (ix2 k i) := by
  simp only [Host.dotGeneral]
  rw [Ideal.dotGeneral_apply, ← Equiv.sum_comp (ValueIdx.contrEquiv1 dot_S128x8192_S8192x512_S128x512_1_0_0_1_n_n 8192 rfl rfl).symm]
  refine Finset.sum_congr rfl fun k _ => ?_
  have hk := ValueIdx.contrEquiv1_symm_val dot_S128x8192_S8192x512_S128x512_1_0_0_1_n_n 8192 rfl rfl k
  have el : dot_S128x8192_S8192x512_S128x512_1_0_0_1_n_n.lhsIdx (ix2 p i)
      ((ValueIdx.contrEquiv1 dot_S128x8192_S8192x512_S128x512_1_0_0_1_n_n 8192 rfl rfl).symm k) = ix2 p k :=
    funext fun a => Fin.ext (by
      match a with
      | ⟨0, _⟩ => exact lhs_axis0 _ _
      | ⟨1, _⟩ => exact (lhs_axis1 _ _).trans hk)
  have er : dot_S128x8192_S8192x512_S128x512_1_0_0_1_n_n.rhsIdx (ix2 p i)
      ((ValueIdx.contrEquiv1 dot_S128x8192_S8192x512_S128x512_1_0_0_1_n_n 8192 rfl rfl).symm k) = ix2 k i :=
    funext fun a => Fin.ext (by
      match a with
      | ⟨0, _⟩ => exact (rhs_axis0 _ _).trans hk
      | ⟨1, _⟩ => exact rhs_axis1 _ _)
  rw [el, er]

/-- Entry (p, i) of X · Aᵀ: the sum over k of X[p, k] · A[i, k]. -/
theorem prodXA_apply (x0 : FVec Ideal S128x8192 .f32) (x2 : FVec Ideal S512x8192 .f32) (p : Fin 128) (i : Fin 512) :
    Host.dotGeneral dot_S128x8192_S8192x512_S128x512_1_0_0_1_n_n none x0
        (transpose S8192x512 [1, 0] x2 transposes_S512x8192_S8192x512_1_0) (ix2 p i)
      = ∑ k : Fin 8192, x0 (ix2 p k) * x2 (ix2 i k) := by
  rw [dot_apply]
  exact Finset.sum_congr rfl fun k _ => by rw [transA_apply]

/-! ## The seventeen operations composed -/

/-- What the operations after the region compute from the output array v0 and the arguments X, A, B, s. -/
def tailTerm (v0 x0 : FVec Ideal S128x8192 .f32) (x2 : FVec Ideal S512x8192 .f32) (x3 : FVec Ideal S16x1 .f32)
    (x4 : FVec Ideal S1 .f32) : FVec Ideal S128x8192 .f32 :=
  addf v0
    (mulf
      (broadcastInDim S128x8192 ![] bcast_S_S128x8192
        (mulf (shapeCast S_ x4 shapeCasts_S1_S_) (constant (F := Ideal) S_ .f32 0x40000000#32)))
      (mulf
        (shapeCast S128x8192
          (broadcastInDim S128x512x16 ![0, 1] bcast_S128x512_S128x512x16_0_1
            (Host.dotGeneral dot_S128x8192_S8192x512_S128x512_1_0_0_1_n_n none x0
              (transpose S8192x512 [1, 0] x2 transposes_S512x8192_S8192x512_1_0)))
          shapeCasts_S128x512x16_S128x8192)
        (broadcastInDim S128x8192 ![0, 1] bcast_S1x8192_S128x8192_0_1
          (broadcastInDim S1x8192 ![1] bcast_S8192_S1x8192_1
            (shapeCast S8192
              (broadcastInDim S512x16 ![0, 1] bcast_S1x16_S512x16_0_1
                (shapeCast S1x16 (shapeCast S16 x3 shapeCasts_S16x1_S16) shapeCasts_S16_S1x16))
              shapeCasts_S512x16_S8192)))))

/-- Entry (p, n) of the composed operations: the output array's entry plus the correction of the specification. -/
theorem tailTerm_apply (v0 x0 : FVec Ideal S128x8192 .f32) (x2 : FVec Ideal S512x8192 .f32)
    (x3 : FVec Ideal S16x1 .f32) (x4 : FVec Ideal S1 .f32) (p : Fin 128) (n : Fin 8192) :
    tailTerm v0 x0 x2 x3 x4 (ix2 p n) = v0 (ix2 p n) + Cert.Lokr.corrAt x0 x2 x3 x4 p n := by
  unfold tailTerm Cert.Lokr.corrAt
  rw [addf_apply, mulf_apply, fill_apply, mulf_apply, scalar_apply, constant_apply, mulf_apply,
    merge_apply, spread_apply, prodXA_apply, rowsTile_apply, rowTile_apply, flatTile_apply, tileB_apply, rowB_apply,
    flatB_apply]

/-! ## The program's tail is the composed operations -/

variable (m : (ℓ : Loc nD τ sig) → Buf (Elt Ideal) ℓ)

/-- The tail's result as the composed operations applied to the output array as the region leaves it and to the
    arguments as launched. -/
theorem tail_term (c : Dev nD) :
    Pipeline.afterTail₀ cfgs (dats (F := Ideal) m) 0 (V0 m) [hostOps1] c main_v16
      = tailTerm ((dats (F := Ideal) m 0 c).arrAt 2 cfg0.N) (m ((c : Thread nD τ).loc main_arg0))
          (m ((c : Thread nD τ).loc main_arg2)) (m ((c : Thread nD τ).loc main_arg3)) (m ((c : Thread nD τ).loc main_arg4)) := by
  -- the region's exit contents read at the five buffers the operations start from
  have e0 : Pipeline.withArrays (cfgs 0).spec c (V0 m c) (fun w => (dats (F := Ideal) m 0 c).arrAt w (cfgs 0).N)
      (Proc.devRef .tc main_v0) = (dats (F := Ideal) m 0 c).arrAt 2 cfg0.N :=
    Pipeline.withArrays_arr spec0 launch0.win.arr_inj c _ _ 2
  have ea0 : Pipeline.withArrays (cfgs 0).spec c (V0 m c) (fun w => (dats (F := Ideal) m 0 c).arrAt w (cfgs 0).N)
      (Proc.devRef .tc main_arg0) = m ((c : Thread nD τ).loc main_arg0) :=
    (Pipeline.withArrays_arr spec0 launch0.win.arr_inj c _ _ 0).trans
      (((dats (F := Ideal) m 0 c).arrAt_in 0 rfl _).trans ((A_eq m c 0).trans (V_main_arg0 m c)))
  have ea2 : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have ea3 : Pipeline.withArrays (cfgs 0).spec c (V0 m c) (fun w => (dats (F := Ideal) m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have ea4 : Pipeline.withArrays (cfgs 0).spec c (V0 m c) (fun w => (dats (F := Ideal) m 0 c).arrAt w (cfgs 0).N)
      (Proc.devRef .tc main_arg4) = m ((c : Thread nD τ).loc main_arg4) :=
    (Pipeline.withArrays_of_ne _ c (V0 m c) _ main_arg4
      (by exact (by decide : ∀ w, Pipeline.arrRef spec0 w ≠ main_arg4))).trans (V_main_arg4 m c)
  unfold Pipeline.afterTail₀
  show StableHlo.after hostOps1 _ (Proc.devRef .tc main_v16) = _
  after_results
  rw [e0, ea0, ea2, ea3, ea4]
  rfl

/-! ## The tail at the extended reals -/

/-- The output array as the region leaves it, at its literal type. -/
abbrev outArr (m : (ℓ : Loc nD τ sig) → Buf (Elt Ideal) ℓ) (c : Dev nD) : FVec Ideal S128x8192 .f32 :=
  (dats (F := Ideal) m 0 c).arrAt 2 cfg0.N

theorem outArr_eq (m : (ℓ : Loc nD τ sig) → Buf (Elt Ideal) ℓ) (c : Dev nD) :
    outArr m c = (dats (F := Ideal) m 0 c).arrAt 2 cfg0.N := rfl

/-- The tail's result: the output array as the region leaves it, plus the low-rank correction of the specification
    computed from the arguments as launched. -/
theorem tail_eq (m : (ℓ : Loc nD τ sig) → Buf (Elt Ideal) ℓ) (c : Dev nD) :
    Pipeline.afterTail₀ cfgs (dats (F := Ideal) m) 0 (V0 m) [hostOps1] c main_v16
      = fun i => outArr m c i
          + Cert.Lokr.corrAt (m ((c : Thread nD τ).loc main_arg0)) (m ((c : Thread nD τ).loc main_arg2)) (m ((c : Thread nD τ).loc main_arg3)) (m ((c : Thread nD τ).loc main_arg4)) (i 0) (i 1) := by
  rw [tail_term]
  funext i
  have hi := eq_ix2 i
  refine (congrArg (tailTerm (outArr m c) (m ((c : Thread nD τ).loc main_arg0)) (m ((c : Thread nD τ).loc main_arg2))
    (m ((c : Thread nD τ).loc main_arg3)) (m ((c : Thread nD τ).loc main_arg4))) hi).trans ?_
  refine (tailTerm_apply (outArr m c) (m ((c : Thread nD τ).loc main_arg0)) (m ((c : Thread nD τ).loc main_arg2))
    (m ((c : Thread nD τ).loc main_arg3)) (m ((c : Thread nD τ).loc main_arg4)) (i 0) (i 1)).trans ?_
  exact congrArg (fun j => outArr m c j + Cert.Lokr.corrAt (m ((c : Thread nD τ).loc main_arg0))
    (m ((c : Thread nD τ).loc main_arg2)) (m ((c : Thread nD τ).loc main_arg3)) (m ((c : Thread nD τ).loc main_arg4))
    (i 0) (i 1)) hi.symm

end Cert.KernelIdeal.Tail

end
-- ==== Proof.KernelRun.lean ====
/-
  The idealized kernel's run, read: its result array ends at the split form of the argument arrays.

  The region leaves `X · Wᵀ` in the main product's array; the host operations after it add the low-rank correction;
  the five argument arrays end as they began.
-/
import proofs.«131442_j70806830841898_1_alg».proof.Proof.Accumulate
import proofs.«131442_j70806830841898_1_alg».proof.Proof.Tail

noncomputable section

open Idealize.ShloMosaic Idealize.ShloMosaic.TcCoe Idealize.SL.Sem Idealize.ShloMosaic.ValueIdx

namespace Cert.KernelIdeal.Result

open Cert.KernelIdeal Cert.KernelIdeal.Gen

variable (m : (ℓ : Loc nD τ sig) → Buf (Elt Ideal) ℓ) (ρ : Dev nD → PrngReg)

/-- The result array after the host tail: the main product plus the correction, i.e. the split form. -/
theorem result_eq (c : Dev nD) :
    Pipeline.afterTail₀ cfgs (dats (F := Ideal) m) 0 (V0 m) [hostOps1] c main_v16
      = Cert.Lokr.split (m ((c : Thread nD τ).loc main_arg0)) (m ((c : Thread nD τ).loc main_arg1))
          (m ((c : Thread nD τ).loc main_arg2)) (m ((c : Thread nD τ).loc main_arg3)) (m ((c : Thread nD τ).loc main_arg4)) := by
  refine (Cert.KernelIdeal.Tail.tail_eq m c).trans (funext fun i => ?_)
  exact congrArg (· + Cert.Lokr.corrAt (m ((c : Thread nD τ).loc main_arg0)) (m ((c : Thread nD τ).loc main_arg2))
      (m ((c : Thread nD τ).loc main_arg3)) (m ((c : Thread nD τ).loc main_arg4)) (i 0) (i 1))
    (congrFun (Cert.KernelIdeal.Acc.final_main m c) i)

/-- Every weakly fair execution ends with the result at the split form and the arguments unchanged. -/
theorem run : θ_run defs (onTc (τ := τ) (main (F := Ideal))) ⟨m, fun _ => 0, ρ⟩ fun r => ∀ c : Dev nD,
      r.2.mem ((c.tc : Thread nD τ).loc main_v16)
        = Cert.Lokr.split (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The certificate: a 128×8192 activation `X` times the transpose of a merged weight,
  `out = X · (W + s·((A ⊗ B)·2))ᵀ` with `A` 512×8192 and `B` 16×1 (so row `16·i + j` of `A ⊗ B` is `B j · A i`).

  The reference forms the merged 8192×8192 weight and takes one product.  The kernel never forms it: a pipelined
  matrix product computes `X · Wᵀ` tile by tile (8 output tiles × 4 contraction steps, accumulated in scratch), and
  the host adds `(s·2) · ((X · Aᵀ)[p, n / 16] · B[n % 16])` at column `n`.  Over the extended reals, with every input
  finite, the two are one function: the sum over the 8192 columns distributes over `W + s·(…)`, and the scalars leave
  the sum.  Distributivity fails at infinities, which is where the precondition is used.

  The three frames: the kernel's and its idealization's are the generated frame runs; the reference has no kernel and
  its frame is its generated run with the result dropped.  The idealization rewrote nothing.
-/
import proofs.«131442_j70806830841898_1_alg».proof.Defs
import proofs.«131442_j70806830841898_1_alg».proof.Proof.Gen.Kernel
import proofs.«131442_j70806830841898_1_alg».proof.Proof.Gen.Kernel.Skeleton
import proofs.«131442_j70806830841898_1_alg».proof.Proof.Gen.Kernel.Launch
import proofs.«131442_j70806830841898_1_alg».proof.Proof.Gen.Kernel.Points
import proofs.«131442_j70806830841898_1_alg».proof.Proof.Gen.Kernel.Frame
import proofs.«131442_j70806830841898_1_alg».proof.Proof.Gen.KernelIdeal
import proofs.«131442_j70806830841898_1_alg».proof.Proof.Gen.KernelIdeal.Skeleton
import proofs.«131442_j70806830841898_1_alg».proof.Proof.Gen.KernelIdeal.Launch
import proofs.«131442_j70806830841898_1_alg».proof.Proof.Gen.KernelIdeal.Points
import proofs.«131442_j70806830841898_1_alg».proof.Proof.Gen.KernelIdeal.Frame
import proofs.«131442_j70806830841898_1_alg».proof.Proof.Gen.ReferenceIdeal
import proofs.«131442_j70806830841898_1_alg».proof.Proof.Gen.ReferenceIdeal.Run
import proofs.«131442_j70806830841898_1_alg».proof.Proof.Gen.ReferenceIdeal.Read
import proofs.«131442_j70806830841898_1_alg».proof.Proof.Gen.Pre_finite_inputs
import proofs.«131442_j70806830841898_1_alg».proof.Proof.Law
import proofs.«131442_j70806830841898_1_alg».proof.Proof.RefValue
import proofs.«131442_j70806830841898_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel ends at the split form and the reference at the merged form of arguments that
    agree; finite arguments make the two forms equal. -/
theorem algebraic : Cert.algebraic_KernelIdeal_ReferenceIdeal := by
  intro m ρ m' ρ' hpre hagree
  refine ⟨fun c => Cert.Lokr.split (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _ _ _ _ _).trans ?_
  rw [Cert.ReferenceIdeal.RefValue.ref_eq, (hagree c).1, (hagree c).2.1, (hagree c).2.2.1, (hagree c).2.2.2.1, (hagree c).2.2.2.2]
  obtain ⟨hX, hW, hA, hB, hs⟩ := Cert.Lokr.real_of_pre _ _ _ _ _ (hpre c)
  exact (Cert.Lokr.split_eq_merged _ _ _ _ _ hX hW hA hB hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
